-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x256_p1_0_S256x1024 : S1024x256.Transposes [1, 0] S256x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.RbfSpec.lean ====
/-
  The pairwise radial-basis table, as one function of the two row tables.

  For row tables `x, y : [·, 256]` over the extended reals the entry at `(r, s)` is
    exp (c · ((‖x_r‖² + ‖y_s‖²) − 2 · ⟨x_r, y_s⟩)),
  the squared distance written through its expansion, with `‖x_r‖² = Σ_k x[r,k]²`, `⟨x_r, y_s⟩ = Σ_k x[r,k]·y[s,k]`,
  `c` the f32 word `0xBBA3D70A` and `2` the f32 word `0x40000000`. Both programs spell the two constants with the same
  words, so neither is ever evaluated. The row count is a parameter: the same three definitions read a [1024, 256]
  block and a [8192, 256] array.
-/
import Idealize.ShloMosaic.PureOps.Ideal
import Idealize.ShloMosaic.Lib.ValueIdx

noncomputable section

open Idealize.ShloMosaic Idealize.ShloMosaic.ValueIdx
open scoped BigOperators

namespace Cert.Rbf

/-- The squared norm of row `r`: the sum over the 256 columns of the entry's square. -/
def sqnorm {n : Nat} (x : (⟨2, ![n, 256]⟩ : Shape).Idx → EReal) (r : Fin n) : EReal :=
  ∑ k : Fin 256, x (ix2 r k) * x (ix2 r k)

/-- The inner product of row `r` of `x` with row `s` of `y`. -/
def inner {n m : Nat} (x : (⟨2, ![n, 256]⟩ : Shape).Idx → EReal) (y : (⟨2, ![m, 256]⟩ : Shape).Idx → EReal)
    (r : Fin n) (s : Fin m) : EReal :=
  ∑ k : Fin 256, x (ix2 r k) * y (ix2 s k)

/-- One entry from its three sums: `exp (c · ((a + b) − 2 · d))`. -/
def entry (a b d : EReal) : EReal :=
  Ideal.exp (Ideal.ofBits .f32 0xBBA3D70A#32 * ((a + b) - Ideal.ofBits .f32 0x40000000#32 * d))

/-- The whole [8192, 8192] table of two [8192, 256] row tables. -/
def table (x y : (⟨2, ![8192, 256]⟩ : Shape).Idx → EReal) : (⟨2, ![8192, 8192]⟩ : Shape).Idx → EReal :=
  fun i => entry (sqnorm (n := 8192) x (i 0)) (sqnorm (n := 8192) y (i 1)) (inner (n := 8192) (m := 8192) x y (i 0) (i 1))

/-- An entry depends only on the two rows it reads: if row `p` of `x` is row `r` of `X` and row `q` of `y` is row `s` of
    `Y`, the entry of `(x, y)` at `(p, q)` is the entry of `(X, Y)` at `(r, s)`, whatever the four row counts. -/
theorem entry_of_rows {n n' m m' : Nat} (X : (⟨2, ![n', 256]⟩ : Shape).Idx → EReal) (Y : (⟨2, ![m', 256]⟩ : Shape).Idx → EReal)
    (x : (⟨2, ![n, 256]⟩ : Shape).Idx → EReal) (y : (⟨2, ![m, 256]⟩ : Shape).Idx → EReal)
    (p : Fin n) (q : Fin m) (r : Fin n') (s : Fin m')
    (hx : ∀ k : Fin 256, x (ix2 p k) = X (ix2 r k)) (hy : ∀ k : Fin 256, y (ix2 q k) = Y (ix2 s k)) :
    entry (sqnorm x p) (sqnorm y q) (inner x y p q) = entry (sqnorm X r) (sqnorm Y s) (inner X Y r s) := by
  unfold sqnorm inner
  simp only [hx, hy]

end Cert.Rbf

end
-- ==== Proof.RbfPayload.lean ====
/-
  The kernel body's one stored value, read at an entry of its [1024, 1024] block.

  From the two loaded [1024, 256] blocks `x` and `y` the body forms: the row sums of squares of `x`, kept as a column
  [1024, 1] and spread along the rows of the block; the row sums of squares of `y`, kept as a column, transposed to a row
  [1, 1024] and spread down the columns; and the product of `x` with the transpose of `y` into a zero accumulator. Over
  the extended reals a change of float format is the identity, a lane sum from the zero word is the plain finite sum, and
  the product into zero is the sum over the contracted axis. So at `(p, q)` the three pieces are `‖x_p‖²`, `‖y_q‖²` and
  `⟨x_p, y_q⟩`, and the stored value is `Cert.Rbf.entry` of them.
-/
import proofs.«146839_j65481071401189_1_alg».proof.Proof.Gen.KernelIdeal.Skeleton
import proofs.«146839_j65481071401189_1_alg».proof.Proof.RbfSpec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.Rbf.Block

open Cert.KernelIdeal Cert.KernelIdeal.Gen

/-- A lane sum of a [1024, 256] block from the zero word, at row `r`: the sum over the 256 columns. -/
theorem laneSum_apply (v : FVec Ideal S1024x256 .f32) (h : S1024x256.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ k : Fin 256, v (ix2 r k) := by
  refine (Ideal.multiReduction_add_single v _ h hφ hacc (ix1 r)).trans ?_
  refine Finset.sum_congr rfl fun k _ => congrArg v (funext fun a => Fin.ext ?_)
  match a with
  | ⟨0, _⟩ => rfl
  | ⟨1, _⟩ => rfl

/-- A [1024] vector kept as a [1024, 1] column: row `r` of the column is entry `r`. -/
theorem column_apply {α : Type} (v : S1024.Idx → α) (h : S1024.ShapeCasts S1024x1) (r : Fin 1024) (z : Fin 1) :
    shapeCast S1024x1 v h (ix2 r z) = v (ix1 r) := by
  refine shapeCast_apply v h (ix2 r z) (ix1 r) ?_
  rw [Shape.rowMajor_val_one, Shape.rowMajor_val_two]
  show r.val = r.val * 1 + z.val
  have := z.isLt
  omega

/-- A [1024, 1] column spread along the rows of a [1024, 1024] block: entry `(p, q)` is row `p` of the column. -/
theorem spreadColumn_apply {α : Type} (v : S1024x1.Idx → α) (h : S1024x1.Broadcasts S1024x1024) (p q : Fin 1024) :
    broadcastTo S1024x1024 v h (ix2 p q) = v (ix2 p (0 : Fin 1)) := by
  refine broadcastTo_apply v h (ix2 p q) (ix2 p (0 : Fin 1)) fun a => ?_
  match a with
  | ⟨0, _⟩ => rfl
  | ⟨1, _⟩ => rfl

/-- The dot record's operand indices, axis by axis: the left operand is read at row `i 0` and the contraction position, the
    right operand (already transposed, [256, 1024]) at the contraction position and column `i 1`. -/
theorem lhs_axis0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_axis1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_axis0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_axis1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The product of a [1024, 256] block with a [256, 1024] block into the zero accumulator, at `(p, q)`: the sum over
    the 256 contraction positions of row `p` of the left times column `q` of the right. -/
theorem product_apply (l : FVec Ideal S1024x256 .bf16) (r : FVec Ideal S256x1024 .bf16) (p q : Fin 1024) :
    matmul dot_S1024x256_S256x1024_S1024x1024_1_0_0_1_n_n none l r (constant S1024x1024 .f32 0x00000000#32) (ix2 p q)
      = ∑ k : Fin 256, l (ix2 p k) * r (ix2 k q) := by
  simp only [matmul]
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 p q) ((ValueIdx.contrEquiv1 dot_S1024x256_S256x1024_S1024x1024_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S1024x256_S256x1024_S1024x1024_1_0_0_1_n_n.rhsIdx (ix2 p q) ((ValueIdx.contrEquiv1 dot_S1024x256_S256x1024_S1024x1024_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-- THE STORED VALUE AT `(p, q)`: `Cert.Rbf.entry` of the squared norm of row `p` of the first block, the squared norm
    of row `q` of the second, and their inner product. -/
theorem payload_apply (x y : Vec Ideal S1024x256 .f32) (p q : Fin 1024) :
    k0_pay1 (F := Ideal) x y (ix2 p q)
      = Cert.Rbf.entry (Cert.Rbf.sqnorm (n := 1024) x p) (Cert.Rbf.sqnorm (n := 1024) y q) (Cert.Rbf.inner (n := 1024) (m := 1024) x y p q) := by
  unfold k0_pay1 Cert.Rbf.entry
  refine congrArg Ideal.exp (congrArg (Ideal.ofBits .f32 0xBBA3D70A#32 * ·) ?_)
  refine congrArg₂ (· - ·) (congrArg₂ (· + ·) ?_ ?_) (congrArg (Ideal.ofBits .f32 0x40000000#32 * ·) ?_)
  · -- the row norm of the first block, spread along the row
    refine (spreadColumn_apply _ _ p q).trans ((column_apply _ _ p 0).trans ((laneSum_apply _ _ _ _ p).trans ?_))
    rfl
  · -- the row norm of the second block, turned into a row and spread down the column
    refine (broadcastTo_1b_ab_apply _ _ p q).trans ((transpose_ix2_apply _ _ (0 : Fin 1) q).trans
      ((column_apply _ _ q 0).trans ((laneSum_apply _ _ _ _ q).trans ?_)))
    rfl
  · -- the product entry: the transpose of the second block read back as its rows
    refine (product_apply _ _ p q).trans (Finset.sum_congr rfl fun k _ => ?_)
    exact congrArg (x (ix2 p k) * ·) (transpose_ix2_apply _ _ k q)

end Cert.Rbf.Block

end
-- ==== Proof.RbfBlocks.lean ====
/-
  From the blocks to the whole table.

  The grid has 8 × 8 points; point `t` with block indices `(b₀, b₁)` loads rows `1024·b₀ …` of the first input and rows
  `1024·b₁ …` of the second (all 256 columns of each), and writes back block `(b₀, b₁)` of the output. Entry `(p, q)` of
  what it writes is `Cert.Rbf.entry` of row `p` of the first block and row `q` of the second, and those are rows
  `1024·b₀ + p` and `1024·b₁ + q` of the inputs: so the block written is block `t` of `Cert.Rbf.table` of the inputs.
  The 64 blocks tile the [8192, 8192] array (entry `i` lies in block `(i 0 / 1024, i 1 / 1024)`), so after the run the
  output array is the table.
-/
import proofs.«146839_j65481071401189_1_alg».proof.Proof.Gen.KernelIdeal.Value
import proofs.«146839_j65481071401189_1_alg».proof.Proof.RbfPayload

noncomputable section

namespace Cert.Rbf.Grid

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The zero offsets of a whole-block access, however spelt. -/
theorem origin : (![0, 0] : Fin 2 → Nat) = fun _ => 0 := funext fun a => by fin_cases a <;> rfl

/-- The index maps, decided over the 64 points: the first input's block row is the output's block row, the second
    input's block row is the output's block column, both inputs take all columns, and the output's block indices stay
    below 8. -/
theorem blockIndex : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every one of the 8 × 8 output blocks is some point's. -/
theorem blockOnto : ∀ (b0 b1 : Fin 8), ∃ t : Fin cfg0.N, win0_2.index t = ![b0.val, b1.val] :=
  (by decide +kernel : ∀ (b0 b1 : Fin 8), ∃ t : Fin grid0.N, win0_2.index t = ![b0.val, b1.val])

/-- WHAT POINT `t` WRITES BACK is block `t` of the table of the two inputs. -/
theorem flushed_eq (c : Dev nD) (t : Fin cfg0.N) :
    (dats m 0 c).flushed 2 t
      = ((cfg0.win 2).blk t).view.read (Elt Ideal) (Cert.Rbf.table (V m c main_arg0) (V m c main_arg1)) := by
  rw [Cert.KernelIdeal.Value.flushed2]
  unfold out0_2
  rw [View.canon_unit_zero origin]
  simp only [View.ld_unit_zero (S := S1024x256) origin]
  obtain ⟨e0, e1, e2, e3, -, -⟩ := blockIndex t
  show (k0_pay1 (F := Ideal) (iblk m c 0 t) (iblk m c 1 t) : S1024x1024.Idx → EReal)
    = fun j : S1024x1024.Idx => Cert.Rbf.table (V m c main_arg0) (V m c main_arg1) (((cfg0.win 2).blk t).view.emb j)
  funext j
  obtain ⟨p, q, rfl⟩ : ∃ (p q : Fin 1024), j = ix2 p q := ⟨j 0, j 1, eq_ix2 j⟩
  refine (Cert.Rbf.Block.payload_apply _ _ p q).trans ?_
  unfold Cert.Rbf.table
  refine Cert.Rbf.entry_of_rows _ _ _ _ p q _ _ (fun k => ?_) (fun k => ?_)
  · show V m c main_arg0 (((cfg0.win 0).blk t).view.emb (ix2 p k))
      = V m c main_arg0 (ix2 ((((cfg0.win 2).blk t).view.emb (ix2 p q)) 0) k)
    refine congrArg _ (funext fun a => Fin.ext ?_)
    match a with
    | ⟨0, _⟩ => show win0_0.index t (0 : Fin 2) * 1024 + 1 * p.val = win0_2.index t (0 : Fin 2) * 1024 + 1 * p.val; omega
    | ⟨1, _⟩ => show win0_0.index t (1 : Fin 2) * 256 + 1 * k.val = k.val; omega
  · show V m c main_arg1 (((cfg0.win 1).blk t).view.emb (ix2 q k))
      = V m c main_arg1 (ix2 ((((cfg0.win 2).blk t).view.emb (ix2 p q)) 1) k)
    refine congrArg _ (funext fun a => Fin.ext ?_)
    match a with
    | ⟨0, _⟩ => show win0_1.index t (0 : Fin 2) * 1024 + 1 * q.val = win0_2.index t (1 : Fin 2) * 1024 + 1 * q.val; omega
    | ⟨1, _⟩ => show win0_1.index t (1 : Fin 2) * 256 + 1 * k.val = k.val; omega

/-- An entry of the array is in point `t`'s block iff each coordinate is in the block's range on its axis. -/
theorem mem_block (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- The blocks tile the array: entry `i` lies in the block of the point whose block indices are its coordinates
    divided by 1024. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := blockOnto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE OUTPUT ARRAY after the run is the table of the two inputs as launched. -/
theorem final (c : Dev nD) :
    (dats m 0 c).arrAt 2 cfg0.N
      = Cert.Rbf.table (m ((c : Thread nD τ).loc main_arg0)) (m ((c : Thread nD τ).loc main_arg1)) :=
  (dats m 0 c).arrAt_eq_of_cover 2 _ (fun t _ => flushed_eq m c t) covered

/-- THE KERNEL'S RUN, READ: every weakly fair execution ends with the output at the table and the inputs unchanged. -/
theorem run : θ_run defs (onTc (τ := τ) (main (F := Ideal))) ⟨m, fun _ => 0, ρ⟩ fun r => ∀ c : Dev nD,
      r.2.mem ((c : Thread nD τ).loc main_v0)
        = Cert.Rbf.table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Rbf.Grid

end
-- ==== Proof.RbfReference.lean ====
/-
  The reference's result is the radial-basis table.

  The host program squares each input, sums each row from a zero initial value, takes the product of the first input with
  the transpose of the second as one contraction over the 256 columns, spreads the two vectors of row sums over the
  [8192, 8192] table (the first along rows, the second down columns), and applies `exp (c · ((a + b) − 2 · d))` entry by
  entry. Read one operation at a time at an entry `i`, the operands are reached at row `i 0` of the first input and row
  `i 1` of the second; the zero initial value of each row sum is absorbed by `0 + s = s`. That is `Cert.Rbf.table`.
-/
import proofs.«146839_j65481071401189_1_alg».proof.Proof.Gen.ReferenceIdeal.Read
import proofs.«146839_j65481071401189_1_alg».proof.Proof.RbfSpec
import Idealize.ShloMosaic.Lib.ValueIdx
import Idealize.ShloMosaic.PureOps.Ideal.Laws

noncomputable section

open Idealize.ShloMosaic Idealize.ShloMosaic.ValueIdx
open scoped BigOperators

namespace Cert.Rbf.Host

open Cert.ReferenceIdeal Cert.ReferenceIdeal.Gen Cert.ReferenceIdeal.Read

/-- The first row sum, followed back from entry `i` of the table through its two spreadings, reads row `i 0`. -/
theorem rowOf_first (i : S8192x8192.Idx) (k : Fin 256) :
    idx_main_v1 (idx_main_v5 (idx_main_v7 i)) k = ix2 (i 0) k :=
  funext fun a => Fin.ext (by match a with | ⟨0, _⟩ => rfl | ⟨1, _⟩ => rfl)

/-- The second row sum, followed back from entry `i`, reads row `i 1`. -/
theorem rowOf_second (i : S8192x8192.Idx) (k : Fin 256) :
    idx_main_v3 (idx_main_v6 (idx_main_v8 i)) k = ix2 (i 1) k :=
  funext fun a => Fin.ext (by match a with | ⟨0, _⟩ => rfl | ⟨1, _⟩ => rfl)

/-- The contraction's left operand at entry `i` and position `k` is `(i 0, k)`, its right operand `(i 1, k)`. -/
theorem left_of (i : S8192x8192.Idx) (k : Fin 256) : lidx_main_v4 i k = ix2 (i 0) k :=
  funext fun a => Fin.ext (by match a with | ⟨0, _⟩ => rfl | ⟨1, _⟩ => rfl)
theorem right_of (i : S8192x8192.Idx) (k : Fin 256) : ridx_main_v4 i k = ix2 (i 1) k :=
  funext fun a => Fin.ext (by match a with | ⟨0, _⟩ => rfl | ⟨1, _⟩ => rfl)

/-- THE REFERENCE'S LAST STAGE is the table of its two arguments. -/
theorem reference_eq (x y : (⟨S8192x256, .f32⟩ : BufTy).Contents (Elt Ideal)) :
    val_main_v15 (F := Ideal) x y = Cert.Rbf.table x y := by
  funext i
  rw [val_main_v15_apply, val_main_v14_apply, val_main_v13_apply, val_main_cst_2_apply, val_main_v12_apply,
    val_main_v9_apply, val_main_v7_apply, val_main_v5_apply, val_main_v1_apply, val_main_cst_apply,
    val_main_v8_apply, val_main_v6_apply, val_main_v3_apply, val_main_cst_0_apply,
    val_main_v11_apply, val_main_v10_apply, val_main_cst_1_apply, val_main_v4_apply]
  simp only [val_main_v0_apply, val_main_v2_apply, rowOf_first, rowOf_second, left_of, right_of,
    Ideal.hostUnary_exp_def, Ideal.mulf_def, Ideal.addf_def, Ideal.subf_def, Ideal.ofBits_def,
    Ideal.ofBits_zero_f32, zero_add]
  rfl

end Cert.Rbf.Host

end
-- ==== Proof.lean ====
/-
  A pairwise radial-basis table, tiled, against its plain form.

  For `x, y : f32[8192, 256]` both programs compute the [8192, 8192] table
    out[n, m] = exp (c · ((‖x_n‖² + ‖y_m‖²) − 2 · ⟨x_n, y_m⟩)),
  the squared distance between row `n` of `x` and row `m` of `y` through its expansion, with the same two constant words
  (`c` = 0xBBA3D70A, `2` = 0x40000000) on both sides (`Cert.Rbf.table`, Proof/RbfSpec.lean).

  The kernel works on an 8 × 8 grid of [1024, 1024] output blocks. At a point it loads 1024 rows of each input, sums the
  squares along each row, narrows both blocks to bf16 and multiplies one by the transpose of the other into a zero
  accumulator, and applies the entry formula. Over the extended reals narrowing is the identity and the product is the
  exact sum over the 256 columns, so an entry of the block is the entry formula of its two rows (Proof/RbfPayload.lean);
  the block written is the matching block of the table, and the 64 blocks tile the array (Proof/RbfBlocks.lean).

  The reference squares, sums each row from a zero initial value, contracts the two inputs over their columns in one
  product, spreads the two vectors of row sums over the table and applies the same formula (Proof/RbfReference.lean).

  The two sides meet in the one function `Cert.Rbf.table`: the only laws used are `0 + s = s` and that a finite sum does
  not depend on how its index set is presented, both valid on all extended reals, so the finiteness of the inputs is
  never opened. The idealization rewrote no operation, so there is nothing to preserve beyond `True`.
-/
import proofs.«146839_j65481071401189_1_alg».proof.Defs
import proofs.«146839_j65481071401189_1_alg».proof.Proof.Gen.Kernel
import proofs.«146839_j65481071401189_1_alg».proof.Proof.Gen.Kernel.Skeleton
import proofs.«146839_j65481071401189_1_alg».proof.Proof.Gen.Kernel.Launch
import proofs.«146839_j65481071401189_1_alg».proof.Proof.Gen.Kernel.Points
import proofs.«146839_j65481071401189_1_alg».proof.Proof.Gen.Kernel.Frame
import proofs.«146839_j65481071401189_1_alg».proof.Proof.Gen.KernelIdeal
import proofs.«146839_j65481071401189_1_alg».proof.Proof.Gen.KernelIdeal.Skeleton
import proofs.«146839_j65481071401189_1_alg».proof.Proof.Gen.KernelIdeal.Launch
import proofs.«146839_j65481071401189_1_alg».proof.Proof.Gen.KernelIdeal.Points
import proofs.«146839_j65481071401189_1_alg».proof.Proof.Gen.KernelIdeal.Frame
import proofs.«146839_j65481071401189_1_alg».proof.Proof.Gen.ReferenceIdeal
import proofs.«146839_j65481071401189_1_alg».proof.Proof.Gen.Pre_finite_inputs
import proofs.«146839_j65481071401189_1_alg».proof.Proof.Gen.KernelIdeal.Value
import proofs.«146839_j65481071401189_1_alg».proof.Proof.Gen.ReferenceIdeal.Run
import proofs.«146839_j65481071401189_1_alg».proof.Proof.Gen.ReferenceIdeal.Read
import proofs.«146839_j65481071401189_1_alg».proof.Proof.RbfSpec
import proofs.«146839_j65481071401189_1_alg».proof.Proof.RbfPayload
import proofs.«146839_j65481071401189_1_alg».proof.Proof.RbfBlocks
import proofs.«146839_j65481071401189_1_alg».proof.Proof.RbfReference
import Idealize.ShloMosaic.Adequacy
import Idealize.ShloMosaic.Init

noncomputable section

namespace Cert.Proof

open Idealize.ShloMosaic Idealize.ShloMosaic.TcCoe Idealize.SL.Sem

/-- The word-level kernel runs and leaves its inputs alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From inputs that agree, the kernel's output array ends at the table of its inputs (the tiled run) and the reference's
    result at the table of its own (its run, read stage by stage): one function of equal arguments. -/
theorem algebraic : Cert.algebraic_KernelIdeal_ReferenceIdeal := by
  intro m ρ m' ρ' _ hagree
  refine ⟨_, Cert.Rbf.Grid.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.Rbf.Host.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
